-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x50x128x64 : Shape := ⟨4, ![32, 50, 128, 64]⟩
abbrev S32x50 : Shape := ⟨2, ![32, 50]⟩
abbrev S32x75x128x64 : Shape := ⟨4, ![32, 75, 128, 64]⟩
abbrev S64x256 : Shape := ⟨2, ![64, 256]⟩
abbrev S256 : Shape := ⟨1, ![256]⟩
abbrev S_ : Shape := ⟨0, ![]⟩

class Facts : Prop where
  bcast_S_S32x50x128x64 : S_.BroadcastsInDim S32x50x128x64 (![] : Fin 0 → Fin S32x50x128x64.rank)
  reducesTo_S32x50x128x64_S_d0_1_2_3 : S32x50x128x64.ReducesTo [0, 1, 2, 3] S_
  h_S_ : 0 < S_.numel
  bcast_S_S32x75x128x64 : S_.BroadcastsInDim S32x75x128x64 (![] : Fin 0 → Fin S32x75x128x64.rank)
  reducesTo_S32x75x128x64_S_d0_1_2_3 : S32x75x128x64.ReducesTo [0, 1, 2, 3] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x50x128x64 .f32) (main_arg1 : IVec S32x50 32) (main_arg2 : FVec F S32x75x128x64 .f32) (main_arg3 : FVec F S64x256 .f32) (main_arg4 : FVec F S256 .f32) : IVec S_ 1 :=
  let main_v0 : FVec F S32x50x128x64 .f32 := Host.absf main_arg0
  let main_cst : FVec F S_ .f32 := constant S_ .f32 0x7F800000#32
  let main_v1 : FVec F S32x50x128x64 .f32 := broadcastInDim S32x50x128x64 ![] bcast_S_S32x50x128x64 main_cst
  let main_v2 : IVec S32x50x128x64 1 := cmpf .olt main_v0 main_v1
  let main_c : IVec S_ 1 := constantI S_ 1 1#1
  let main_v3 : IVec S_ 1 := (fun x v => Host.reduce IntOp.andi x v reducesTo_S32x50x128x64_S_d0_1_2_3 h_S_) main_v2 main_c
  let main_v4 : FVec F S32x75x128x64 .f32 := Host.absf main_arg2
  let main_cst_0 : FVec F S_ .f32 := constant S_ .f32 0x7F800000#32
  let main_v5 : FVec F S32x75x128x64 .f32 := broadcastInDim S32x75x128x64 ![] bcast_S_S32x75x128x64 main_cst_0
  let main_v6 : IVec S32x75x128x64 1 := cmpf .olt main_v4 main_v5
  let main_c_1 : IVec S_ 1 := constantI S_ 1 1#1
  let main_v7 : IVec S_ 1 := (fun x v => Host.reduce IntOp.andi x v reducesTo_S32x75x128x64_S_d0_1_2_3 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x50x128x64 : Shape := ⟨4, ![32, 50, 128, 64]⟩
abbrev S32x50 : Shape := ⟨2, ![32, 50]⟩
abbrev S32x75x128x64 : Shape := ⟨4, ![32, 75, 128, 64]⟩
abbrev S64x256 : Shape := ⟨2, ![64, 256]⟩
abbrev S256 : Shape := ⟨1, ![256]⟩
abbrev S1x256 : Shape := ⟨2, ![1, 256]⟩
abbrev S1600x128x64 : Shape := ⟨3, ![1600, 128, 64]⟩
abbrev S2400x128x64 : Shape := ⟨3, ![2400, 128, 64]⟩
abbrev S1600x256 : Shape := ⟨2, ![1600, 256]⟩
abbrev S400x128x64 : Shape := ⟨3, ![400, 128, 64]⟩
abbrev S400x256 : Shape := ⟨2, ![400, 256]⟩
abbrev S400x64 : Shape := ⟨2, ![400, 64]⟩
abbrev S32x50x256 : Shape := ⟨3, ![32, 50, 256]⟩
abbrev S2400x256 : Shape := ⟨2, ![2400, 256]⟩
abbrev S32x75x256 : Shape := ⟨3, ![32, 75, 256]⟩
abbrev S32x50x1 : Shape := ⟨3, ![32, 50, 1]⟩
abbrev S5 : Shape := ⟨1, ![5]⟩
abbrev S1x1x5 : Shape := ⟨3, ![1, 1, 5]⟩
abbrev S32x50x5 : Shape := ⟨3, ![32, 50, 5]⟩
abbrev S_ : Shape := ⟨0, ![]⟩
abbrev S32x5 : Shape := ⟨2, ![32, 5]⟩
abbrev S32x5x256 : Shape := ⟨3, ![32, 5, 256]⟩
abbrev S32x5x1 : Shape := ⟨3, ![32, 5, 1]⟩
abbrev S32x75x1x256 : Shape := ⟨4, ![32, 75, 1, 256]⟩
abbrev S32x1x5x256 : Shape := ⟨4, ![32, 1, 5, 256]⟩
abbrev S32x75x5x256 : Shape := ⟨4, ![32, 75, 5, 256]⟩
abbrev S32x75x5 : Shape := ⟨3, ![32, 75, 5]⟩
abbrev S2400x5 : Shape := ⟨2, ![2400, 5]⟩

abbrev nBuf : Space → Nat
  | .hbm => 36
  | .vmem => 12
  | .smem => 0
  | _ => 0

abbrev bufTy : (tb : Table) → Fin (tcTables nBuf tb) → BufTy
  | .hbm, ⟨0, _⟩ => ⟨S32x50x128x64, .f32⟩
  | .hbm, ⟨1, _⟩ => ⟨S32x50, .i32⟩
  | .hbm, ⟨2, _⟩ => ⟨S32x75x128x64, .f32⟩
  | .hbm, ⟨3, _⟩ => ⟨S64x256, .f32⟩
  | .hbm, ⟨4, _⟩ => ⟨S256, .f32⟩
  | .hbm, ⟨5, _⟩ => ⟨S1x256, .f32⟩
  | .hbm, ⟨6, _⟩ => ⟨S1600x128x64, .f32⟩
  | .hbm, ⟨7, _⟩ => ⟨S2400x128x64, .f32⟩
  | .hbm, ⟨8, _⟩ => ⟨S1600x256, .f32⟩
  | .hbm, ⟨9, _⟩ => ⟨S32x50x256, .f32⟩
  | .hbm, ⟨10, _⟩ => ⟨S2400x256, .f32⟩
  | .hbm, ⟨11, _⟩ => ⟨S32x75x256, .f32⟩
  | .hbm, ⟨12, _⟩ => ⟨S32x50x1, .i32⟩
  | .hbm, ⟨13, _⟩ => ⟨S5, .i32⟩
  | .hbm, ⟨14, _⟩ => ⟨S1x1x5, .i32⟩
  | .hbm, ⟨15, _⟩ => ⟨S32x50x5, .i32⟩
  | .hbm, ⟨16, _⟩ => ⟨S32x50x5, .i32⟩
  | .hbm, ⟨17, _⟩ => ⟨S32x50x5, .i1⟩
  | .hbm, ⟨18, _⟩ => ⟨S32x50x5, .f32⟩
  | .hbm, ⟨19, _⟩ => ⟨S_, .f32⟩
  | .hbm, ⟨20, _⟩ => ⟨S32x5, .f32⟩
  | .hbm, ⟨21, _⟩ => ⟨S32x5x256, .f32⟩
  | .hbm, ⟨22, _⟩ => ⟨S32x5x1, .f32⟩
  | .hbm, ⟨23, _⟩ => ⟨S32x5x256, .f32⟩
  | .hbm, ⟨24, _⟩ => ⟨S32x5x256, .f32⟩
  | .hbm, ⟨25, _⟩ => ⟨S32x75x1x256, .f32⟩
  | .hbm, ⟨26, _⟩ => ⟨S32x1x5x256, .f32⟩
  | .hbm, ⟨27, _⟩ => ⟨S32x75x5x256, .f32⟩
  | .hbm, ⟨28, _⟩ => ⟨S32x75x5x256, .f32⟩
  | .hbm, ⟨29, _⟩ => ⟨S32x75x5x256, .f32⟩
  | .hbm, ⟨30, _⟩ => ⟨S32x75x5x256, .f32⟩
  | .hbm, ⟨31, _⟩ => ⟨S_, .f32⟩
  | .hbm, ⟨32, _⟩ => ⟨S32x75x5, .f32⟩
  | .hbm, ⟨33, _⟩ => ⟨S32x75x5, .f32⟩
  | .hbm, ⟨34, _⟩ => ⟨S32x75x5, .f32⟩
  | .hbm, ⟨35, _⟩ => ⟨S2400x5, .f32⟩
  | .local _ .vmem, ⟨0, _⟩ => ⟨S400x128x64, .f32⟩
  | .local _ .vmem, ⟨1, _⟩ => ⟨S400x128x64, .f32⟩
  | .local _ .vmem, ⟨2, _⟩ => ⟨S64x256, .f32⟩
  | .local _ .vmem, ⟨3, _⟩ => ⟨S1x256, .f32⟩
  | .local _ .vmem, ⟨4, _⟩ => ⟨S400x256, .f32⟩
  | .local _ .vmem, ⟨5, _⟩ => ⟨S400x256, .f32⟩
  | .local _ .vmem, ⟨6, _⟩ => ⟨S400x128x64, .f32⟩
  | .local _ .vmem, ⟨7, _⟩ => ⟨S400x128x64, .f32⟩
  | .local _ .vmem, ⟨8, _⟩ => ⟨S64x256, .f32⟩
  | .local _ .vmem, ⟨9, _⟩ => ⟨S1x256, .f32⟩
  | .local _ .vmem, ⟨10, _⟩ => ⟨S400x256, .f32⟩
  | .local _ .vmem, ⟨11, _⟩ => ⟨S400x256, .f32⟩
  | _, _ => ⟨S32x50x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S256_S1x256 : S256.ShapeCasts S1x256
  shapeCasts_S32x50x128x64_S1600x128x64 : S32x50x128x64.ShapeCasts S1600x128x64
  shapeCasts_S32x75x128x64_S2400x128x64 : S32x75x128x64.ShapeCasts S2400x128x64
  inb_S400x128x64_S400x128x64_0_0_0 : ∀ a, (![0, 0, 0] : Fin 3 → Nat) a + S400x128x64.size a ≤ S400x128x64.size a
  h_S400x128x64 : 0 < S400x128x64.numel
  shapeCasts_S400x128x64_S400x128x64 : S400x128x64.ShapeCasts S400x128x64
  reduces_S400x128x64_S400x64 : S400x128x64.Reduces [1] S400x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  shapeCasts_S1600x256_S32x50x256 : S1600x256.ShapeCasts S32x50x256
  shapeCasts_S2400x256_S32x75x256 : S2400x256.ShapeCasts S32x75x256
  bcast_S32x50_S32x50x1_0_1 : S32x50.BroadcastsInDim S32x50x1 (![0, 1] : Fin 2 → Fin S32x50x1.rank)
  bcast_S5_S1x1x5_2 : S5.BroadcastsInDim S1x1x5 (![2] : Fin 1 → Fin S1x1x5.rank)
  bcast_S32x50x1_S32x50x5_0_1_2 : S32x50x1.BroadcastsInDim S32x50x5 (![0, 1, 2] : Fin 3 → Fin S32x50x5.rank)
  bcast_S1x1x5_S32x50x5_0_1_2 : S1x1x5.BroadcastsInDim S32x50x5 (![0, 1, 2] : Fin 3 → Fin S32x50x5.rank)
  reducesTo_S32x50x5_S32x5_d1 : S32x50x5.ReducesTo [1] S32x5
  h_S_ : 0 < S_.numel
  bcast_S32x5_S32x5x1_0_1 : S32x5.BroadcastsInDim S32x5x1 (![0, 1] : Fin 2 → Fin S32x5x1.rank)
  bcast_S32x5x1_S32x5x256_0_1_2 : S32x5x1.BroadcastsInDim S32x5x256 (![0, 1, 2] : Fin 3 → Fin S32x5x256.rank)
  bcast_S32x75x256_S32x75x1x256_0_1_3 : S32x75x256.BroadcastsInDim S32x75x1x256 (![0, 1, 3] : Fin 3 → Fin S32x75x1x256.rank)
  bcast_S32x5x256_S32x1x5x256_0_2_3 : S32x5x256.BroadcastsInDim S32x1x5x256 (![0, 2, 3] : Fin 3 → Fin S32x1x5x256.rank)
  bcast_S32x75x1x256_S32x75x5x256_0_1_2_3 : S32x75x1x256.BroadcastsInDim S32x75x5x256 (![0, 1, 2, 3] : Fin 4 → Fin S32x75x5x256.rank)
  bcast_S32x1x5x256_S32x75x5x256_0_1_2_3 : S32x1x5x256.BroadcastsInDim S32x75x5x256 (![0, 1, 2, 3] : Fin 4 → Fin S32x75x5x256.rank)
  reducesTo_S32x75x5x256_S32x75x5_d3 : S32x75x5x256.ReducesTo [3] S32x75x5
  shapeCasts_S32x75x5_S2400x5 : S32x75x5.ShapeCasts S2400x5
  dot_S400x64_S64x256_S400x256_1_0_0_1_n_n_wf : DotDims.WF S400x64 S64x256 S400x256 [1] [0] [0] [1] [] []
  dot_S32x50x5_S32x50x256_S32x5x256_1_1_2_2_0_0_wf : DotDims.WF S32x50x5 S32x50x256 S32x5x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128x64.size a ≤ S1600x128x64.size a
  hwx0_0 : ∀ i : grid0.Coords, EltTy.bits .f32 = 32 ∨ (Rect.block (s := S1600x128x64) S400x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S1600x256.size a
  hwx0_3 : ∀ i : grid0.Coords, EltTy.bits .f32 = 32 ∨ (Rect.block (s := S1600x256) S400x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x128x64.size a ≤ S2400x128x64.size a
  hwx1_0 : ∀ i : grid1.Coords, EltTy.bits .f32 = 32 ∨ (Rect.block (s := S2400x128x64) S400x128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S2400x256.size a
  hwx1_3 : ∀ i : grid1.Coords, EltTy.bits .f32 = 32 ∨ (Rect.block (s := S2400x256) S400x256.size (cc1_transform_3 i) (hinb1_3 i)).WholeWords (EltTy.packing .f32)

variable [Facts₀]

def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S32x50x5_S32x50x256_S32x5x256_1_1_2_2_0_0 : DotDims S32x50x5 S32x50x256 S32x5x256 where
  lhsContracting := [1]
  rhsContracting := [1]
  lhsNonContracting := [2]
  rhsNonContracting := [2]
  lhsBatch := [0]
  rhsBatch := [0]
  wf := dot_S32x50x5_S32x50x256_S32x5x256_1_1_2_2_0_0_wf

abbrev win0_0 : Pipeline.Window sig grid0 :=
  Pipeline.Window.ofSpec (Memref.whole main_v1) S400x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S400x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x50x128x64 : Shape := ⟨4, ![32, 50, 128, 64]⟩
abbrev S32x50 : Shape := ⟨2, ![32, 50]⟩
abbrev S32x75x128x64 : Shape := ⟨4, ![32, 75, 128, 64]⟩
abbrev S64x256 : Shape := ⟨2, ![64, 256]⟩
abbrev S256 : Shape := ⟨1, ![256]⟩
abbrev S_ : Shape := ⟨0, ![]⟩
abbrev S32x50x64 : Shape := ⟨3, ![32, 50, 64]⟩
abbrev S32x50x256 : Shape := ⟨3, ![32, 50, 256]⟩
abbrev S1x1x256 : Shape := ⟨3, ![1, 1, 256]⟩
abbrev S32x75x64 : Shape := ⟨3, ![32, 75, 64]⟩
abbrev S32x75x256 : Shape := ⟨3, ![32, 75, 256]⟩
abbrev S32x50x1 : Shape := ⟨3, ![32, 50, 1]⟩
abbrev S5 : Shape := ⟨1, ![5]⟩
abbrev S1x1x5 : Shape := ⟨3, ![1, 1, 5]⟩
abbrev S32x50x5 : Shape := ⟨3, ![32, 50, 5]⟩
abbrev S32x5 : Shape := ⟨2, ![32, 5]⟩
abbrev S32x5x256 : Shape := ⟨3, ![32, 5, 256]⟩
abbrev S32x5x1 : Shape := ⟨3, ![32, 5, 1]⟩
abbrev S32x75x1x256 : Shape := ⟨4, ![32, 75, 1, 256]⟩
abbrev S32x1x5x256 : Shape := ⟨4, ![32, 1, 5, 256]⟩
abbrev S32x75x5x256 : Shape := ⟨4, ![32, 75, 5, 256]⟩
abbrev S32x75x5 : Shape := ⟨3, ![32, 75, 5]⟩
abbrev S2400x5 : Shape := ⟨2, ![2400, 5]⟩

abbrev nBuf : Space → Nat
  | .hbm => 47
  | .vmem => 0
  | .smem => 0
  | _ => 0

abbrev bufTy : (tb : Table) → Fin (tcTables nBuf tb) → BufTy
  | .hbm, ⟨0, _⟩ => ⟨S32x50x128x64, .f32⟩
  | .hbm, ⟨1, _⟩ => ⟨S32x50, .i32⟩
  | .hbm, ⟨2, _⟩ => ⟨S32x75x128x64, .f32⟩
  | .hbm, ⟨3, _⟩ => ⟨S64x256, .f32⟩
  | .hbm, ⟨4, _⟩ => ⟨S256, .f32⟩
  | .hbm, ⟨5, _⟩ => ⟨S_, .f32⟩
  | .hbm, ⟨6, _⟩ => ⟨S32x50x64, .f32⟩
  | .hbm, ⟨7, _⟩ => ⟨S32x50x256, .f32⟩
  | .hbm, ⟨8, _⟩ => ⟨S_, .f32⟩
  | .hbm, ⟨9, _⟩ => ⟨S32x50x256, .f32⟩
  | .hbm, ⟨10, _⟩ => ⟨S32x50x256, .f32⟩
  | .hbm, ⟨11, _⟩ => ⟨S1x1x256, .f32⟩
  | .hbm, ⟨12, _⟩ => ⟨S32x50x256, .f32⟩
  | .hbm, ⟨13, _⟩ => ⟨S32x50x256, .f32⟩
  | .hbm, ⟨14, _⟩ => ⟨S_, .f32⟩
  | .hbm, ⟨15, _⟩ => ⟨S32x75x64, .f32⟩
  | .hbm, ⟨16, _⟩ => ⟨S32x75x256, .f32⟩
  | .hbm, ⟨17, _⟩ => ⟨S_, .f32⟩
  | .hbm, ⟨18, _⟩ => ⟨S32x75x256, .f32⟩
  | .hbm, ⟨19, _⟩ => ⟨S32x75x256, .f32⟩
  | .hbm, ⟨20, _⟩ => ⟨S1x1x256, .f32⟩
  | .hbm, ⟨21, _⟩ => ⟨S32x75x256, .f32⟩
  | .hbm, ⟨22, _⟩ => ⟨S32x75x256, .f32⟩
  | .hbm, ⟨23, _⟩ => ⟨S32x50x1, .i32⟩
  | .hbm, ⟨24, _⟩ => ⟨S5, .i32⟩
  | .hbm, ⟨25, _⟩ => ⟨S1x1x5, .i32⟩
  | .hbm, ⟨26, _⟩ => ⟨S32x50x5, .i32⟩
  | .hbm, ⟨27, _⟩ => ⟨S32x50x5, .i32⟩
  | .hbm, ⟨28, _⟩ => ⟨S32x50x5, .i1⟩
  | .hbm, ⟨29, _⟩ => ⟨S32x50x5, .f32⟩
  | .hbm, ⟨30, _⟩ => ⟨S_, .f32⟩
  | .hbm, ⟨31, _⟩ => ⟨S32x5, .f32⟩
  | .hbm, ⟨32, _⟩ => ⟨S32x5x256, .f32⟩
  | .hbm, ⟨33, _⟩ => ⟨S32x5x1, .f32⟩
  | .hbm, ⟨34, _⟩ => ⟨S32x5x256, .f32⟩
  | .hbm, ⟨35, _⟩ => ⟨S32x5x256, .f32⟩
  | .hbm, ⟨36, _⟩ => ⟨S32x75x1x256, .f32⟩
  | .hbm, ⟨37, _⟩ => ⟨S32x1x5x256, .f32⟩
  | .hbm, ⟨38, _⟩ => ⟨S32x75x5x256, .f32⟩
  | .hbm, ⟨39, _⟩ => ⟨S32x75x5x256, .f32⟩
  | .hbm, ⟨40, _⟩ => ⟨S32x75x5x256, .f32⟩
  | .hbm, ⟨41, _⟩ => ⟨S32x75x5x256, .f32⟩
  | .hbm, ⟨42, _⟩ => ⟨S_, .f32⟩
  | .hbm, ⟨43, _⟩ => ⟨S32x75x5, .f32⟩
  | .hbm, ⟨44, _⟩ => ⟨S32x75x5, .f32⟩
  | .hbm, ⟨45, _⟩ => ⟨S32x75x5, .f32⟩
  | .hbm, ⟨46, _⟩ => ⟨S2400x5, .f32⟩
  | _, _ => ⟨S32x50x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  reducesTo_S32x50x128x64_S32x50x64_d2 : S32x50x128x64.ReducesTo [2] S32x50x64
  h_S_ : 0 < S_.numel
  bcast_S_S32x50x256 : S_.BroadcastsInDim S32x50x256 (![] : Fin 0 → Fin S32x50x256.rank)
  bcast_S256_S1x1x256_2 : S256.BroadcastsInDim S1x1x256 (![2] : Fin 1 → Fin S1x1x256.rank)
  bcast_S1x1x256_S32x50x256_0_1_2 : S1x1x256.BroadcastsInDim S32x50x256 (![0, 1, 2] : Fin 3 → Fin S32x50x256.rank)
  reducesTo_S32x75x128x64_S32x75x64_d2 : S32x75x128x64.ReducesTo [2] S32x75x64
  bcast_S_S32x75x256 : S_.BroadcastsInDim S32x75x256 (![] : Fin 0 → Fin S32x75x256.rank)
  bcast_S1x1x256_S32x75x256_0_1_2 : S1x1x256.BroadcastsInDim S32x75x256 (![0, 1, 2] : Fin 3 → Fin S32x75x256.rank)
  bcast_S32x50_S32x50x1_0_1 : S32x50.BroadcastsInDim S32x50x1 (![0, 1] : Fin 2 → Fin S32x50x1.rank)
  bcast_S5_S1x1x5_2 : S5.BroadcastsInDim S1x1x5 (![2] : Fin 1 → Fin S1x1x5.rank)
  bcast_S32x50x1_S32x50x5_0_1_2 : S32x50x1.BroadcastsInDim S32x50x5 (![0, 1, 2] : Fin 3 → Fin S32x50x5.rank)
  bcast_S1x1x5_S32x50x5_0_1_2 : S1x1x5.BroadcastsInDim S32x50x5 (![0, 1, 2] : Fin 3 → Fin S32x50x5.rank)
  reducesTo_S32x50x5_S32x5_d1 : S32x50x5.ReducesTo [1] S32x5
  bcast_S32x5_S32x5x1_0_1 : S32x5.BroadcastsInDim S32x5x1 (![0, 1] : Fin 2 → Fin S32x5x1.rank)
  bcast_S32x5x1_S32x5x256_0_1_2 : S32x5x1.BroadcastsInDim S32x5x256 (![0, 1, 2] : Fin 3 → Fin S32x5x256.rank)
  bcast_S32x75x256_S32x75x1x256_0_1_3 : S32x75x256.BroadcastsInDim S32x75x1x256 (![0, 1, 3] : Fin 3 → Fin S32x75x1x256.rank)
  bcast_S32x5x256_S32x1x5x256_0_2_3 : S32x5x256.BroadcastsInDim S32x1x5x256 (![0, 2, 3] : Fin 3 → Fin S32x1x5x256.rank)
  bcast_S32x75x1x256_S32x75x5x256_0_1_2_3 : S32x75x1x256.BroadcastsInDim S32x75x5x256 (![0, 1, 2, 3] : Fin 4 → Fin S32x75x5x256.rank)
  bcast_S32x1x5x256_S32x75x5x256_0_1_2_3 : S32x1x5x256.BroadcastsInDim S32x75x5x256 (![0, 1, 2, 3] : Fin 4 → Fin S32x75x5x256.rank)
  reducesTo_S32x75x5x256_S32x75x5_d3 : S32x75x5x256.ReducesTo [3] S32x75x5
  shapeCasts_S32x75x5_S2400x5 : S32x75x5.ShapeCasts S2400x5
  dot_S32x50x64_S64x256_S32x50x256_2_0_01_1_n_n_wf : DotDims.WF S32x50x64 S64x256 S32x50x256 [2] [0] [0, 1] [1] [] []
  dot_S32x75x64_S64x256_S32x75x256_2_0_01_1_n_n_wf : DotDims.WF S32x75x64 S64x256 S32x75x256 [2] [0] [0, 1] [1] [] []
  dot_S32x50x5_S32x50x256_S32x5x256_1_1_2_2_0_0_wf : DotDims.WF S32x50x5 S32x50x256 S32x5x256 [1] [1] [2] [2] [0] [0]

variable [Facts₀]

def dot_S32x50x64_S64x256_S32x50x256_2_0_01_1_n_n : DotDims S32x50x64 S64x256 S32x50x256 where
  lhsContracting := [2]
  rhsContracting := [0]
  lhsNonContracting := [0, 1]
  rhsNonContracting := [1]
  lhsBatch := []
  rhsBatch := []
  wf := dot_S32x50x64_S64x256_S32x50x256_2_0_01_1_n_n_wf
def dot_S32x75x64_S64x256_S32x75x256_2_0_01_1_n_n : DotDims S32x75x64 S64x256 S32x75x256 where
  lhsContracting := [2]
  rhsContracting := [0]
  lhsNonContracting := [0, 1]
  rhsNonContracting := [1]
  lhsBatch := []
  rhsBatch := []
  wf := dot_S32x75x64_S64x256_S32x75x256_2_0_01_1_n_n_wf
def dot_S32x50x5_S32x50x256_S32x5x256_1_1_2_2_0_0 : DotDims S32x50x5 S32x50x256 S32x5x256 where
  lhsContracting := [1]
  rhsContracting := [1]
  lhsNonContracting := [2]
  rhsNonContracting := [2]
  lhsBatch := [0]
  rhsBatch := [0]
  wf := dot_S32x50x5_S32x50x256_S32x5x256_1_1_2_2_0_0_wf

class Facts : Prop extends Facts₀ where

variable [Facts]
-- ==== Proof.Spec.lean ====
/-
  The encoder both programs apply to a stack of feature frames, as one function of the arrays, entry by entry.

  A row r of the stack is a [128, 64] block of frames; the encoder averages it over its 128 time steps, projects the
  64 averaged features through a [64, 256] weight matrix and adds a bias row:
      enc x w b (r, q) = (Σ_k ((Σ_t x (r, t, k)) · s) · w (k, q)) + b (0, q),
  with s the scale the kernel spells as a float word (the word of 2⁻⁷ = 1/128). The rows are the flattened
  (episode, sample) pairs: R = 1600 for the support set, R = 2400 for the query set.
-/
import Idealize.ShloMosaic.PureOps.Ideal.Laws
import Idealize.ShloMosaic.Lib.ValueIdx

noncomputable section

open scoped BigOperators
open Idealize.ShloMosaic Idealize.ShloMosaic.ValueIdx

namespace Cert.Spec

/-- The scale of the mean over the 128 time steps, as the float word the kernel multiplies by. -/
abbrev scale : EReal := Ideal.ofBits .f32 0x3C000000#32

/-- The encoder at row `p` and output feature `q`. -/
def encAt {R : Nat} (x : (⟨3, ![R, 128, 64]⟩ : Shape).Idx → EReal) (w : (⟨2, ![64, 256]⟩ : Shape).Idx → EReal)
    (b : (⟨2, ![1, 256]⟩ : Shape).Idx → EReal) (p : Fin R) (q : Fin 256) : EReal :=
  (∑ k : Fin 64, ((∑ t : Fin 128, x (ix3 p t k)) * scale) * w (ix2 k q)) + b (ix2 (0 : Fin 1) q)

/-- The encoder as an [R, 256] array. -/
def enc (R : Nat) (x : (⟨3, ![R, 128, 64]⟩ : Shape).Idx → EReal) (w : (⟨2, ![64, 256]⟩ : Shape).Idx → EReal)
    (b : (⟨2, ![1, 256]⟩ : Shape).Idx → EReal) : (⟨2, ![R, 256]⟩ : Shape).Idx → EReal :=
  fun i => encAt x w b (i 0) (i 1)

theorem enc_apply {R : Nat} (x : (⟨3, ![R, 128, 64]⟩ : Shape).Idx → EReal) (w : (⟨2, ![64, 256]⟩ : Shape).Idx → EReal)
    (b : (⟨2, ![1, 256]⟩ : Shape).Idx → EReal) (p : Fin R) (q : Fin 256) :
    enc R x w b (ix2 p q) = encAt x w b p q := rfl

end Cert.Spec

end
-- ==== Proof.Tail.lean ====
/-
  What both programs do with the two encoded sets, as ONE function: from the encoded support set sz [32, 50, 256], the
  encoded query set qz [32, 75, 256] and the support labels y [32, 50],

    one-hot (e, s, k)   = 1 if y (e, s) = k else 0                                  (k ranges over the 5 classes)
    count (e, k)        = Σ_s one-hot (e, s, k)
    prototype (e, k, d) = (Σ_s one-hot (e, s, k) · sz (e, s, d)) / count (e, k)
    logit (e, n, k)     = − sqrt (Σ_d (qz (e, n, d) − prototype (e, k, d))²),

  re-laid as a [2400, 5] array. The two programs apply these same host operations, in the same order, to their own
  encoded sets; the certificate never opens them: it shows the encoded sets equal and applies this function to both.
-/
import proofs.«180324_j29351806501536_1_alg».proof.Proof.Gen.ReferenceIdeal
import Idealize.ShloMosaic.PureOps.Ideal

noncomputable section

namespace Cert.Tail

open Idealize.ShloMosaic Cert.ReferenceIdeal Cert.ReferenceIdeal.Gen

/-- The prototype distances of the query set, from the encoded sets and the labels. -/
def tail (sz : FVec Ideal S32x50x256 .f32) (qz : FVec Ideal S32x75x256 .f32) (y : IVec S32x50 32) : FVec Ideal S2400x5 .f32 :=
  have onehot : FVec Ideal S32x50x5 .f32 :=
    uitofp .f32 (cmpi .eq (broadcastInDim S32x50x5 ![0, 1, 2] bcast_S32x50x1_S32x50x5_0_1_2 (broadcastInDim S32x50x1 ![0, 1] bcast_S32x50_S32x50x1_0_1 y))
      (broadcastInDim S32x50x5 ![0, 1, 2] bcast_S1x1x5_S32x50x5_0_1_2 (broadcastInDim S1x1x5 ![2] bcast_S5_S1x1x5_2 (iotaInDim S5 32 0))))
  have count : FVec Ideal S32x5 .f32 := Host.reduceAdd onehot (constant S_ .f32 0x00000000#32) reducesTo_S32x50x5_S32x5_d1 h_S_
  have proto : FVec Ideal S32x5x256 .f32 :=
    Host.divf (Host.dotGeneral dot_S32x50x5_S32x50x256_S32x5x256_1_1_2_2_0_0 none onehot sz)
      (broadcastInDim S32x5x256 ![0, 1, 2] bcast_S32x5x1_S32x5x256_0_1_2 (broadcastInDim S32x5x1 ![0, 1] bcast_S32x5_S32x5x1_0_1 count))
  have diff : FVec Ideal S32x75x5x256 .f32 :=
    subf (broadcastInDim S32x75x5x256 ![0, 1, 2, 3] bcast_S32x75x1x256_S32x75x5x256_0_1_2_3 (broadcastInDim S32x75x1x256 ![0, 1, 3] bcast_S32x75x256_S32x75x1x256_0_1_3 qz))
      (broadcastInDim S32x75x5x256 ![0, 1, 2, 3] bcast_S32x1x5x256_S32x75x5x256_0_1_2_3 (broadcastInDim S32x1x5x256 ![0, 2, 3] bcast_S32x5x256_S32x1x5x256_0_2_3 proto))
  shapeCast S2400x5 (Host.negf (Host.sqrt (Host.reduceAdd (mulf diff diff) (constant S_ .f32 0x00000000#32) reducesTo_S32x75x5x256_S32x75x5_d3 h_S_))) shapeCasts_S32x75x5_S2400x5

end Cert.Tail

end
-- ==== Proof.RefTail.lean ====
/-
  The reference's result is the shared tail of its own two encoder stages: its program is the encoder applied to the
  support frames, the encoder applied to the query frames, and then the prototype distances of the two.
-/
import proofs.«180324_j29351806501536_1_alg».proof.Proof.Gen.ReferenceIdeal.Read
import proofs.«180324_j29351806501536_1_alg».proof.Proof.Tail

set_option maxRecDepth 16384

noncomputable section

namespace Cert.RefTail

open Idealize.ShloMosaic Idealize.ShloMosaic.TcCoe Idealize.SL.Sem Cert.ReferenceIdeal Cert.ReferenceIdeal.Gen

/-- The reference run's result term is the tail of the two encoder stages of the launch arrays. -/
theorem result_eq (m : (ℓ : Loc nD τ sig) → Buf (Elt Ideal) ℓ) (c : Dev nD) :
    Cert.ReferenceIdeal.Value.res_main_v35 (F := Ideal) m c
      = Cert.Tail.tail
          (Cert.ReferenceIdeal.Read.val_main_v6 (F := Ideal) (m ((c.tc : Thread nD τ).loc main_arg0)) (m ((c.tc : Thread nD τ).loc main_arg3)) (m ((c.tc : Thread nD τ).loc main_arg4)))
          (Cert.ReferenceIdeal.Read.val_main_v13 (F := Ideal) (m ((c.tc : Thread nD τ).loc main_arg2)) (m ((c.tc : Thread nD τ).loc main_arg3)) (m ((c.tc : Thread nD τ).loc main_arg4)))
          (m ((c.tc : Thread nD τ).loc main_arg1)) := by
  unfold Cert.ReferenceIdeal.Value.res_main_v35 Cert.Tail.tail
  rfl

end Cert.RefTail

end
-- ==== Proof.KValue.lean ====
/-
  The kernel program's result buffer when @main returns, as the shared tail of the two pallas_calls' output arrays.

  @main is: three re-layings of the arguments (the bias as a [1, 256] row, the support and query frames as stacks of
  1600 and 2400 rows); the first pallas_call, whose output array [1600, 256] is re-laid as the encoded support set
  [32, 50, 256]; the second pallas_call, whose output array [2400, 256] is re-laid as the encoded query set
  [32, 75, 256]; then the prototype distances of the two sets under the support labels. The buffer contents at each
  boundary are a fold from the launch memory: a host stretch applies its operations, a region replaces its arrays by what
  its pipeline's write-backs leave. Read at the result buffer, the last boundary is the tail of: the first region's output
  array after its run, re-laid; the second region's, re-laid; and the labels as launched (no operation and no region
  writes them).
-/
import proofs.«180324_j29351806501536_1_alg».proof.Proof.Gen.KernelIdeal.Frame
import proofs.«180324_j29351806501536_1_alg».proof.Proof.Tail

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The labels reach the second region's exit as launched: neither region has them among its arrays and no host operation
    before it writes them. -/
theorem labels_kept (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- The encoded support set at the second region's exit: the first region's output array after its run, re-laid; the
    second region does not have it among its arrays. -/
theorem support_kept (c : Dev nD) :
    W4 m ρ c (Proc.devRef .tc main_v4)
      = shapeCast S32x50x256 ((dat0 (V1 m ρ) c).arrAt 3 cfg0.N) shapeCasts_S1600x256_S32x50x256 := by
  rw [W4_of_ne m ρ c main_v4 (by decide)]
  show StableHlo.after hostOps1 (W2 m ρ c) (Proc.devRef .tc main_v4) = _
  unfold hostOps1
  after_results
  rw [show W2 m ρ c (Proc.devRef .tc main_v3) = (dat0 (V1 m ρ) c).arrAt 3 cfg0.N from W2_arr m ρ c 3]
  rfl

/-- The second region's output array at its exit is what its pipeline's write-backs leave. -/
theorem query_arr (c : Dev nD) : W4 m ρ c (Proc.devRef .tc main_v5) = (dat1 (V3 m ρ) c).arrAt 3 cfg1.N :=
  W4_arr m ρ c 3

/-- The last host stretch over ANY contents `U` at its entry: the result buffer ends at the tail of the encoded support
    set, the re-laid second output array and the labels, as `U` holds them. -/
theorem tail_of_entry (U : Valuation τ sig (Elt Ideal)) :
    StableHlo.after hostOps2 U (Proc.devRef .tc main_v28)
      = Cert.Tail.tail (U (Proc.devRef .tc main_v4))
          (shapeCast S32x75x256 (U (Proc.devRef .tc main_v5)) shapeCasts_S2400x256_S32x75x256)
          (U (Proc.devRef .tc main_arg1)) := by
  unfold hostOps2
  after_results_simp <;> rfl <;> (unfold Cert.Tail.tail; rfl)

/-- The result buffer when @main returns. -/
theorem result_eq (c : Dev nD) :
    W5 m ρ c (Proc.devRef .tc main_v28)
      = Cert.Tail.tail
          (shapeCast S32x50x256 ((dat0 (V1 m ρ) c).arrAt 3 cfg0.N) shapeCasts_S1600x256_S32x50x256)
          (shapeCast S32x75x256 ((dat1 (V3 m ρ) c).arrAt 3 cfg1.N) shapeCasts_S2400x256_S32x75x256)
          (m ((c : Thread nD τ).loc main_arg1)) := by
  show StableHlo.after hostOps2 (W4 m ρ c) (Proc.devRef .tc main_v28) = _
  rw [tail_of_entry (W4 m ρ c), support_kept m ρ c, query_arr m ρ c, labels_kept m ρ c]

end Cert.KernelIdeal.KValue

end
-- ==== Proof.KEntry.lean ====
/-
  What each pallas_call finds in its input arrays when it is entered, in terms of the launch memory.

  The first region is entered after the three re-layings: its frame stack is the support frames [32, 50, 128, 64] re-laid
  as 1600 rows, its weights are the weight argument itself, its bias row is the bias [256] re-laid as [1, 256]. The second
  region is entered after the first region and one more re-laying; the first region writes only its own output array (its
  three inputs it leaves as it found them), so the second region finds the query frames re-laid as 2400 rows, the same
  weights and the same bias row.
-/
import proofs.«180324_j29351806501536_1_alg».proof.Proof.Gen.KernelIdeal.Frame
import Idealize.ShloMosaic.PureOps.Ideal

set_option maxRecDepth 16384

noncomputable section

namespace Cert.KernelIdeal.KEntry

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The first region's entry -/

theorem frames0 (c : Dev nD) :
    V1 m ρ c main_v1 = shapeCast S1600x128x64 (m ((c : Thread nD τ).loc main_arg0)) shapeCasts_S32x50x128x64_S1600x128x64 := by
  show StableHlo.after hostOps0 (W0 m ρ c) (Proc.devRef .tc main_v1) = _
  unfold hostOps0
  after_results
  rfl

theorem weights0 (c : Dev nD) : V1 m ρ c main_arg3 = m ((c : Thread nD τ).loc main_arg3) := by
  show StableHlo.after hostOps0 (W0 m ρ c) (Proc.devRef .tc main_arg3) = _
  unfold hostOps0
  after_results

theorem bias0 (c : Dev nD) :
    V1 m ρ c main_v0 = shapeCast S1x256 (m ((c : Thread nD τ).loc main_arg4)) shapeCasts_S256_S1x256 := by
  show StableHlo.after hostOps0 (W0 m ρ c) (Proc.devRef .tc main_v0) = _
  unfold hostOps0
  after_results
  rfl

/-! ## The second region's entry -/

theorem frames1 (c : Dev nD) :
    V3 m ρ c main_v2 = shapeCast S2400x128x64 (m ((c : Thread nD τ).loc main_arg2)) shapeCasts_S32x75x128x64_S2400x128x64 := by
  show StableHlo.after hostOps1 (W2 m ρ c) (Proc.devRef .tc main_v2) = _
  unfold hostOps1
  after_results
  rw [W2_of_ne m ρ c main_v2 (by decide)]
  show StableHlo.after hostOps0 (W0 m ρ c) (Proc.devRef .tc main_v2) = _
  unfold hostOps0
  after_results
  rfl

theorem weights1 (c : Dev nD) : V3 m ρ c main_arg3 = m ((c : Thread nD τ).loc main_arg3) := by
  show StableHlo.after hostOps1 (W2 m ρ c) (Proc.devRef .tc main_arg3) = _
  unfold hostOps1
  after_results
  rw [show W2 m ρ c (Proc.devRef .tc main_arg3) = V1 m ρ c main_arg3 from
    (W2_arr m ρ c 1).trans (((dat0 (V1 m ρ) c).arrAt_in 1 rfl _).trans (A_eq0 (V1 m ρ) c 1))]
  exact weights0 m ρ c

theorem bias1 (c : Dev nD) :
    V3 m ρ c main_v0 = shapeCast S1x256 (m ((c : Thread nD τ).loc main_arg4)) shapeCasts_S256_S1x256 := by
  show StableHlo.after hostOps1 (W2 m ρ c) (Proc.devRef .tc main_v0) = _
  unfold hostOps1
  after_results
  rw [show W2 m ρ c (Proc.devRef .tc main_v0) = V1 m ρ c main_v0 from
    (W2_arr m ρ c 2).trans (((dat0 (V1 m ρ) c).arrAt_in 2 rfl _).trans (A_eq0 (V1 m ρ) c 2))]
  exact bias0 m ρ c

end Cert.KernelIdeal.KEntry

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.KBlocks.lean ====
/-
  Each of the two calls' output arrays, after its pipeline has run, is the encoder of the arrays the call found.

  Both calls run one body over a stack of [128, 64] frames, 400 rows of the stack at a grid point: the first over 1600
  rows (4 points), the second over 2400 rows (6 points). At a point the body reads a [400, 128, 64] block of frames, the
  whole [64, 256] weight matrix and the whole [1, 256] bias row, and leaves in the output's [400, 256] block
      (Σ_k ((Σ_t x (p, t, k)) · s) · w (k, q)) + b (0, q)      at (p, q),
  s the scale word 2⁻⁷. Three steps:
    1. the body's arithmetic read at one entry is the encoder of its three blocks at that entry;
    2. the frames' block at point t is rows 400 t … 400 t + 399 of the stack, the other two blocks are their whole arrays,
       and the output's block sits at the same rows: so what point t writes back is block t of the encoder of the arrays;
    3. every row r of the output array lies in the block of point r / 400, and every point writes back: so the array ends
       holding the encoder, as one function of the arrays.
-/
import proofs.«180324_j29351806501536_1_alg».proof.Proof.Gen.KernelIdeal.Frame
import proofs.«180324_j29351806501536_1_alg».proof.Proof.Spec
import proofs.«180324_j29351806501536_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.SL.Sem Cert.KernelIdeal Cert.KernelIdeal.Gen
open Idealize.ShloMosaic.ValueIdx
open scoped BigOperators

/-! ## Step 1: the body's arithmetic at one entry -/

/-- The sum over the 128 time steps of a [400, 128, 64] block, at row p and feature k: the index the reduction inserts
    on axis 1 is (p, t, k). -/
theorem laneSum (v : FVec Ideal S400x128x64 .f32) (h : S400x128x64.Reduces [1] S400x64) (hφ : FKind.Formats .f32)
    (hacc : (0x00000000#32 : BitVec 32) = FKind.add.neutral .f32 hφ) (p : Fin 400) (k : Fin 64) :
    multiReduction .add [1] S400x64 v 0x00000000#32 h hφ hacc (ix2 p k) = ∑ t : Fin 128, v (ix3 p t k) := by
  refine (Ideal.multiReduction_add_single v 0x00000000#32 h hφ hacc (ix2 p k)).trans ?_
  refine Finset.sum_congr rfl fun t _ => congrArg v ?_
  funext a
  match a with
  | ⟨0, _⟩ => exact Fin.ext rfl
  | ⟨1, _⟩ => exact Fin.ext rfl
  | ⟨2, _⟩ => exact Fin.ext rfl

/-- THE PAYLOAD AT AN ENTRY: the body's arithmetic on its three loaded blocks, read at row p and output feature q, is the
    encoder of those blocks there. The product into the zero matrix is the sum over the 64 features; the two format changes
    are the identity on extended reals; the reduction over axis 1 is the sum over the 128 time steps; the scale word is a
    broadcast scalar; the bias row is spread down the rows; the two same-shape casts are the identity. -/
theorem pay0_apply (x0 : Vec Ideal S400x128x64 .f32) (x1 : Vec Ideal S64x256 .f32) (x2 : Vec Ideal S1x256 .f32)
    (p : Fin 400) (q : Fin 256) :
    k0_pay1 (F := Ideal) x0 x1 x2 (ix2 p q) = Cert.Spec.encAt x0 x1 x2 p q := by
  unfold k0_pay1
  dsimp only
  rw [addf_apply]
  unfold Cert.Spec.encAt
  refine congrArg₂ (· + ·) ((Cert.Lib.PlainMatmul.apply _ rfl rfl rfl rfl rfl rfl none _ _ p q).trans ?_)
    ((Cert.Lib.PlainMatmul.rowSpread_apply _ _ p q).trans ?_)
  · refine Finset.sum_congr rfl fun k _ => ?_
    rw [truncf_apply, truncf_apply, mulf_apply, broadcast_apply]
    refine congrArg (· * x1 (ix2 k q)) (congrArg₂ (· * ·) ((laneSum _ _ _ _ p k).trans ?_) rfl)
    rw [shapeCast_self]
  · rw [shapeCast_self]

/-- As one whole-block function: the payload is the 400-row encoder of its blocks. -/
theorem pay0_eq (x0 : Vec Ideal S400x128x64 .f32) (x1 : Vec Ideal S64x256 .f32) (x2 : Vec Ideal S1x256 .f32) :
    k0_pay1 (F := Ideal) x0 x1 x2 = Cert.Spec.enc 400 x0 x1 x2 := by
  funext j
  rw [eq_ix2 j]
  exact pay0_apply x0 x1 x2 (j 0) (j 1)

/-- The second call's body is the same arithmetic. -/
theorem pay1_eq (x0 : Vec Ideal S400x128x64 .f32) (x1 : Vec Ideal S64x256 .f32) (x2 : Vec Ideal S1x256 .f32) :
    k1_pay1 (F := Ideal) x0 x1 x2 = Cert.Spec.enc 400 x0 x1 x2 :=
  (show k1_pay1 (F := Ideal) x0 x1 x2 = k0_pay1 (F := Ideal) x0 x1 x2 from rfl).trans (pay0_eq x0 x1 x2)

/-- The zero offsets a whole-block access is written with are the zero function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first call: 1600 rows, 4 points -/

section Call0
variable (V : (c : Dev nD) → (b : Ref sig .tc) → Buf (Elt Ideal) ((c : Thread nD τ).loc b))

/-! ### Step 2: what a point writes back -/

/-- The index maps, decided once over the grid: the frames' window and the output window sit at block row t and at
    block 0 on their other axes; the weights' and the bias row's windows never move; the grid has 4 points. -/
theorem idx0 : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 4 :=
  (by decide +kernel : ∀ t : Fin grid0.N, _)

/-- The frames' block at point t, at (p, s, k), is the stack's row 400 t + p there. -/
theorem frames0_at (c : Dev nD) (t : Fin cfg0.N) (p : Fin 400) (s : Fin 128) (k : Fin 64) (r : Fin 1600)
    (hr : r.val = t.val * 400 + p.val) : iblk0 V c 0 t (ix3 p s k) = V c main_v1 (ix3 r s k) := by
  obtain ⟨e0, e1, e2, -⟩ := idx0 t
  show V c main_v1 (((cfg0.win 0).blk t).view.emb (ix3 p s k)) = V c main_v1 (ix3 r s k)
  refine congrArg (V c main_v1) (funext fun a => Fin.ext ?_)
  match a with
  | ⟨0, _⟩ => show win0_0.index t (0 : Fin 3) * 400 + 1 * p.val = r.val; omega
  | ⟨1, _⟩ => show win0_0.index t (1 : Fin 3) * 128 + 1 * s.val = s.val; omega
  | ⟨2, _⟩ => show win0_0.index t (2 : Fin 3) * 64 + 1 * k.val = k.val; omega

/-- The weights' block at every point is the whole weight matrix. -/
theorem weights0_at (c : Dev nD) (t : Fin cfg0.N) (k : Fin 64) (q : Fin 256) :
    iblk0 V c 1 t (ix2 k q) = V c main_arg3 (ix2 k q) := by
  obtain ⟨-, -, -, e0, e1, -⟩ := idx0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 64 + 1 * k.val = k.val; omega
  | ⟨1, _⟩ => show win0_1.index t (1 : Fin 2) * 256 + 1 * q.val = q.val; omega

/-- The bias row's block at every point is the whole bias row. -/
theorem bias0_at (c : Dev nD) (t : Fin cfg0.N) (z : Fin 1) (q : Fin 256) :
    iblk0 V c 2 t (ix2 z q) = V c main_v0 (ix2 z q) := by
  obtain ⟨-, -, -, -, -, e0, e1, -⟩ := idx0 t
  show V c main_v0 (((cfg0.win 2).blk t).view.emb (ix2 z q)) = V c main_v0 (ix2 z q)
  refine congrArg (V c main_v0) (funext fun a => Fin.ext ?_)
  match a with
  | ⟨0, _⟩ => show win0_2.index t (0 : Fin 2) * 1 + 1 * z.val = z.val; omega
  | ⟨1, _⟩ => show win0_2.index t (1 : Fin 2) * 256 + 1 * q.val = q.val; omega

/-- WHAT POINT t WRITES BACK is block t of the encoder of the arrays the call found: the staging buffer holds the
    400-row encoder of the three input blocks, the frames' block is rows 400 t … 400 t + 399 of the stack, the weights and
    the bias row are read whole, and the output's block sits at the same rows. -/
theorem flushed0_eq (c : Dev nD) (t : Fin cfg0.N) :
    (dat0 (F := Ideal) V c).flushed 3 t = ((cfg0.win 3).blk t).view.read (Elt Ideal)
      (Cert.Spec.enc 1600 (V c main_v1) (V c main_arg3) (V c main_v0)) := by
  show (cfg0.win 3).cut (grid0.coords t) ((dat0 V c).after 3 t) = _
  rw [after0_3]
  unfold out0_3
  rw [View.canon_unit_zero hz2]
  simp only [View.ld_unit_zero (S := S400x128x64) hz3, View.ld_unit_zero (S := S64x256) hz2,
    View.ld_unit_zero (S := S1x256) hz2]
  rw [pay0_eq]
  obtain ⟨-, -, -, -, -, -, -, e0, e1, hN⟩ := idx0 t
  refine funext fun (j : S400x256.Idx) => ?_
  obtain ⟨p, q, rfl⟩ : ∃ (p : Fin 400) (q : Fin 256), j = ix2 p q := ⟨j 0, j 1, eq_ix2 j⟩
  have hp : p.val < 400 := p.isLt
  show Cert.Spec.encAt (iblk0 V c 0 t) (iblk0 V c 1 t) (iblk0 V c 2 t) p q
    = Cert.Spec.encAt (V c main_v1) (V c main_arg3) (V c main_v0)
        (((cfg0.win 3).blk t).view.emb (ix2 p q) 0) (((cfg0.win 3).blk t).view.emb (ix2 p q) 1)
  have hrow : ((cfg0.win 3).blk t).view.emb (ix2 p q) 0 = (⟨t.val * 400 + p.val, by omega⟩ : Fin 1600) :=
    Fin.ext (show win0_3.index t (0 : Fin 2) * 400 + 1 * p.val = t.val * 400 + p.val by omega)
  have hcol : ((cfg0.win 3).blk t).view.emb (ix2 p q) 1 = q :=
    Fin.ext (show win0_3.index t (1 : Fin 2) * 256 + 1 * q.val = q.val by omega)
  rw [hrow, hcol]
  unfold Cert.Spec.encAt
  exact congrArg₂ (· + ·)
    (Finset.sum_congr rfl fun k _ => congrArg₂ (· * ·)
      (congrArg (· * Cert.Spec.scale) (Finset.sum_congr rfl fun s _ => frames0_at V c t p s k _ rfl))
      (weights0_at V c t k q))
    (bias0_at V c t 0 q)

/-! ### Step 3: the cover and the array -/

/-- An index of the output array is in point t's block iff each coordinate is in the block's range on its axis. -/
theorem mem_blk0 (t : Fin cfg0.N) (i : S1600x256.Idx) :
    i ∈ ((cfg0.win 3).blk t).view.set ↔ ∀ a : Fin 2, win0_3.index t a * S400x256.size a ≤ (i a).val
      ∧ (i a).val < win0_3.index t a * S400x256.size a + S400x256.size a := by
  show i ∈ ((View.whole main_v3).slice (win0_3.rect t)).set ↔ _
  rw [View.set_slice_whole, Rect.mem_set_unit]
  exact Iff.rfl

/-- THE COVER: row r of the output array is in the block of point r / 400, which is written back. -/
theorem cover0 (i : S1600x256.Idx) :
    ∃ t : Fin cfg0.N, (cfg0.win 3).flush t = true ∧ i ∈ ((cfg0.win 3).blk t).view.set := by
  have hi0 : (i 0).val < 1600 := (i 0).isLt
  have hi1 : (i 1).val < 256 := (i 1).isLt
  have ht : (i 0).val / 400 < cfg0.N := lt_of_lt_of_eq (by omega : (i 0).val / 400 < 4) N_0.symm
  obtain ⟨-, -, -, -, -, -, -, e0, e1, -⟩ := idx0 ⟨(i 0).val / 400, ht⟩
  have e0' : win0_3.index ⟨(i 0).val / 400, ht⟩ (0 : Fin 2) = (i 0).val / 400 := e0
  refine ⟨⟨(i 0).val / 400, ht⟩, flush0_3 _, ?_⟩
  rw [mem_blk0]
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    omega
  | ⟨1, _⟩ =>
    show win0_3.index ⟨(i 0).val / 400, ht⟩ (1 : Fin 2) * 256 ≤ (i 1).val
      ∧ (i 1).val < win0_3.index ⟨(i 0).val / 400, ht⟩ (1 : Fin 2) * 256 + 256
    omega

/-- THE ARRAY after the first call's pipeline has run is the 1600-row encoder of the arrays the call found. -/
theorem arr0 (c : Dev nD) :
    (dat0 (F := Ideal) V c).arrAt 3 cfg0.N = Cert.Spec.enc 1600 (V c main_v1) (V c main_arg3) (V c main_v0) :=
  (dat0 V c).arrAt_eq_of_cover 3 (Cert.Spec.enc 1600 (V c main_v1) (V c main_arg3) (V c main_v0))
    (fun t _ => flushed0_eq V c t) cover0

end Call0

/-! ## The second call: 2400 rows, 6 points -/

section Call1
variable (V : (c : Dev nD) → (b : Ref sig .tc) → Buf (Elt Ideal) ((c : Thread nD τ).loc b))

/-! ### Step 2: what a point writes back -/

/-- The index maps, decided once over the grid: the frames' window and the output window sit at block row t and at
    block 0 on their other axes; the weights' and the bias row's windows never move; the grid has 6 points. -/
theorem idx1 : ∀ t : Fin cfg1.N, win1_0.index t (0 : Fin 3) = t.val ∧ win1_0.index t (1 : Fin 3) = 0
    ∧ win1_0.index t (2 : Fin 3) = 0 ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 6 :=
  (by decide +kernel : ∀ t : Fin grid1.N, _)

/-- The frames' block at point t, at (p, s, k), is the stack's row 400 t + p there. -/
theorem frames1_at (c : Dev nD) (t : Fin cfg1.N) (p : Fin 400) (s : Fin 128) (k : Fin 64) (r : Fin 2400)
    (hr : r.val = t.val * 400 + p.val) : iblk1 V c 0 t (ix3 p s k) = V c main_v2 (ix3 r s k) := by
  obtain ⟨e0, e1, e2, -⟩ := idx1 t
  show V c main_v2 (((cfg1.win 0).blk t).view.emb (ix3 p s k)) = V c main_v2 (ix3 r s k)
  refine congrArg (V c main_v2) (funext fun a => Fin.ext ?_)
  match a with
  | ⟨0, _⟩ => show win1_0.index t (0 : Fin 3) * 400 + 1 * p.val = r.val; omega
  | ⟨1, _⟩ => show win1_0.index t (1 : Fin 3) * 128 + 1 * s.val = s.val; omega
  | ⟨2, _⟩ => show win1_0.index t (2 : Fin 3) * 64 + 1 * k.val = k.val; omega

/-- The weights' block at every point is the whole weight matrix. -/
theorem weights1_at (c : Dev nD) (t : Fin cfg1.N) (k : Fin 64) (q : Fin 256) :
    iblk1 V c 1 t (ix2 k q) = V c main_arg3 (ix2 k q) := by
  obtain ⟨-, -, -, e0, e1, -⟩ := idx1 t
  show V c main_arg3 (((cfg1.win 1).blk t).view.emb (ix2 k q)) = V c main_arg3 (ix2 k q)
  refine congrArg (V c main_arg3) (funext fun a => Fin.ext ?_)
  match a with
  | ⟨0, _⟩ => show win1_1.index t (0 : Fin 2) * 64 + 1 * k.val = k.val; omega
  | ⟨1, _⟩ => show win1_1.index t (1 : Fin 2) * 256 + 1 * q.val = q.val; omega

/-- The bias row's block at every point is the whole bias row. -/
theorem bias1_at (c : Dev nD) (t : Fin cfg1.N) (z : Fin 1) (q : Fin 256) :
    iblk1 V c 2 t (ix2 z q) = V c main_v0 (ix2 z q) := by
  obtain ⟨-, -, -, -, -, e0, e1, -⟩ := idx1 t
  show V c main_v0 (((cfg1.win 2).blk t).view.emb (ix2 z q)) = V c main_v0 (ix2 z q)
  refine congrArg (V c main_v0) (funext fun a => Fin.ext ?_)
  match a with
  | ⟨0, _⟩ => show win1_2.index t (0 : Fin 2) * 1 + 1 * z.val = z.val; omega
  | ⟨1, _⟩ => show win1_2.index t (1 : Fin 2) * 256 + 1 * q.val = q.val; omega

/-- WHAT POINT t WRITES BACK is block t of the encoder of the arrays the call found: the staging buffer holds the
    400-row encoder of the three input blocks, the frames' block is rows 400 t … 400 t + 399 of the stack, the weights and
    the bias row are read whole, and the output's block sits at the same rows. -/
theorem flushed1_eq (c : Dev nD) (t : Fin cfg1.N) :
    (dat1 (F := Ideal) V c).flushed 3 t = ((cfg1.win 3).blk t).view.read (Elt Ideal)
      (Cert.Spec.enc 2400 (V c main_v2) (V c main_arg3) (V c main_v0)) := by
  show (cfg1.win 3).cut (grid1.coords t) ((dat1 V c).after 3 t) = _
  rw [after1_3]
  unfold out1_3
  rw [View.canon_unit_zero hz2]
  simp only [View.ld_unit_zero (S := S400x128x64) hz3, View.ld_unit_zero (S := S64x256) hz2,
    View.ld_unit_zero (S := S1x256) hz2]
  rw [pay1_eq]
  obtain ⟨-, -, -, -, -, -, -, e0, e1, hN⟩ := idx1 t
  refine funext fun (j : S400x256.Idx) => ?_
  obtain ⟨p, q, rfl⟩ : ∃ (p : Fin 400) (q : Fin 256), j = ix2 p q := ⟨j 0, j 1, eq_ix2 j⟩
  have hp : p.val < 400 := p.isLt
  show Cert.Spec.encAt (iblk1 V c 0 t) (iblk1 V c 1 t) (iblk1 V c 2 t) p q
    = Cert.Spec.encAt (V c main_v2) (V c main_arg3) (V c main_v0)
        (((cfg1.win 3).blk t).view.emb (ix2 p q) 0) (((cfg1.win 3).blk t).view.emb (ix2 p q) 1)
  have hrow : ((cfg1.win 3).blk t).view.emb (ix2 p q) 0 = (⟨t.val * 400 + p.val, by omega⟩ : Fin 2400) :=
    Fin.ext (show win1_3.index t (0 : Fin 2) * 400 + 1 * p.val = t.val * 400 + p.val by omega)
  have hcol : ((cfg1.win 3).blk t).view.emb (ix2 p q) 1 = q :=
    Fin.ext (show win1_3.index t (1 : Fin 2) * 256 + 1 * q.val = q.val by omega)
  rw [hrow, hcol]
  unfold Cert.Spec.encAt
  exact congrArg₂ (· + ·)
    (Finset.sum_congr rfl fun k _ => congrArg₂ (· * ·)
      (congrArg (· * Cert.Spec.scale) (Finset.sum_congr rfl fun s _ => frames1_at V c t p s k _ rfl))
      (weights1_at V c t k q))
    (bias1_at V c t 0 q)

/-! ### Step 3: the cover and the array -/

/-- An index of the output array is in point t's block iff each coordinate is in the block's range on its axis. -/
theorem mem_blk1 (t : Fin cfg1.N) (i : S2400x256.Idx) :
    i ∈ ((cfg1.win 3).blk t).view.set ↔ ∀ a : Fin 2, win1_3.index t a * S400x256.size a ≤ (i a).val
      ∧ (i a).val < win1_3.index t a * S400x256.size a + S400x256.size a := by
  show i ∈ ((View.whole main_v5).slice (win1_3.rect t)).set ↔ _
  rw [View.set_slice_whole, Rect.mem_set_unit]
  exact Iff.rfl

/-- THE COVER: row r of the output array is in the block of point r / 400, which is written back. -/
theorem cover1 (i : S2400x256.Idx) :
    ∃ t : Fin cfg1.N, (cfg1.win 3).flush t = true ∧ i ∈ ((cfg1.win 3).blk t).view.set := by
  have hi0 : (i 0).val < 2400 := (i 0).isLt
  have hi1 : (i 1).val < 256 := (i 1).isLt
  have ht : (i 0).val / 400 < cfg1.N := lt_of_lt_of_eq (by omega : (i 0).val / 400 < 6) N_1.symm
  obtain ⟨-, -, -, -, -, -, -, e0, e1, -⟩ := idx1 ⟨(i 0).val / 400, ht⟩
  have e0' : win1_3.index ⟨(i 0).val / 400, ht⟩ (0 : Fin 2) = (i 0).val / 400 := e0
  refine ⟨⟨(i 0).val / 400, ht⟩, flush1_3 _, ?_⟩
  rw [mem_blk1]
  intro a
  match a with
  | ⟨0, _⟩ =>
    show win1_3.index ⟨(i 0).val / 400, ht⟩ (0 : Fin 2) * 400 ≤ (i 0).val
      ∧ (i 0).val < win1_3.index ⟨(i 0).val / 400, ht⟩ (0 : Fin 2) * 400 + 400
    omega
  | ⟨1, _⟩ =>
    show win1_3.index ⟨(i 0).val / 400, ht⟩ (1 : Fin 2) * 256 ≤ (i 1).val
      ∧ (i 1).val < win1_3.index ⟨(i 0).val / 400, ht⟩ (1 : Fin 2) * 256 + 256
    omega

/-- THE ARRAY after the second call's pipeline has run is the 2400-row encoder of the arrays the call found. -/
theorem arr1 (c : Dev nD) :
    (dat1 (F := Ideal) V c).arrAt 3 cfg1.N = Cert.Spec.enc 2400 (V c main_v2) (V c main_arg3) (V c main_v0) :=
  (dat1 V c).arrAt_eq_of_cover 3 (Cert.Spec.enc 2400 (V c main_v2) (V c main_arg3) (V c main_v0))
    (fun t _ => flushed1_eq V c t) cover1

end Call1

end Cert.KernelIdeal.Blocks

end
-- ==== Proof.EncRef.lean ====
/-
  The encoder of the specification, re-laid from flattened rows to (episode, sample) pairs, is the reference's
  encoder stage, when the frames and the weights are real numbers.

  Row e·N + n of the flattened stack of frames is the pair (e, n); entry (0, q) of the [1, 256] bias row is entry q
  of the bias vector. At the pair (e, n) and the output feature q the specification reads
      (Σ_k ((Σ_t x (e, n, t, k)) · s) · w (k, q)) + b q,        s the float word of 2⁻⁷ = 1/128,
  and the reference reads
      ((Σ_k (0 + Σ_t x (e, n, t, k)) · w (k, q)) / 128) + b q.
  Over the reals division by 128 is multiplication by 1/128, and the factor moves through the finite sum: the two
  are the same extended real. The bias is added last on both sides, so it may be any extended real.
-/
import proofs.«180324_j29351806501536_1_alg».proof.Proof.Gen.ReferenceIdeal.Read
import proofs.«180324_j29351806501536_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.EncRef

/-! ## The two float words -/

/-- The word 0x3C000000 is 2⁻⁷ = 1/128. -/
theorem scale_eq : Ideal.ofBits .f32 0x3C000000#32 = ((1 / 128 : ℝ) : EReal) := by
  simp [Ideal.ofBits, Ideal.ieee, -EReal.coe_mul]; norm_num

/-- The word 0x43000000 is 128. -/
theorem c128_eq : Ideal.ofBits .f32 0x43000000#32 = ((128 : ℝ) : EReal) := by
  simp [Ideal.ofBits, Ideal.ieee, -EReal.coe_mul]; norm_num

/-! ## The law over the reals -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling each time sum by 1/128 before the projection is dividing the projection of the (zero-initialised) time
    sums by 128, for real frames and real weights; the bias is any extended real. -/
theorem law {T K : Type*} [Fintype T] [Fintype K] (xr : T → K → ℝ) (wr : K → ℝ) (b : EReal) :
    (∑ k, ((∑ t, (xr t k : EReal)) * ((1 / 128 : ℝ) : EReal)) * (wr k : EReal)) + b
      = Ideal.div (∑ k, (0 + ∑ t, (xr t k : EReal)) * (wr k : EReal)) ((128 : ℝ) : EReal) + b := by
  rw [Ideal.div_coe (by norm_num : (128 : ℝ) ≠ 0)]
  congr 1
  simp only [zero_add, ← coe_sum, ← EReal.coe_mul]
  congr 1
  rw [Finset.sum_mul]
  refine Finset.sum_congr rfl fun k _ => ?_
  ring

/-- The law with the two float words in place and the arrays known only to hold reals. -/
theorem law_words {T K : Type*} [Fintype T] [Fintype K] (x : T → K → EReal) (w : K → EReal) (b : EReal)
    (fx : ∀ t k, ∃ r : ℝ, x t k = (r : EReal)) (fw : ∀ k, ∃ r : ℝ, w k = (r : EReal)) :
    (∑ k, ((∑ t, x t k) * Cert.Spec.scale) * w k) + b
      = Ideal.div (∑ k, (Ideal.ofBits .f32 0x00000000#32 + ∑ t, x t k) * w k) (Ideal.ofBits .f32 0x43000000#32) + b := by
  choose xr hx using fx
  choose wr hw using fw
  have ex : x = fun t k => ((xr t k : ℝ) : EReal) := funext fun t => funext fun k => hx t k
  have ew : w = fun k => ((wr k : ℝ) : EReal) := funext fun k => hw k
  subst ex; subst ew
  show (∑ k, ((∑ t, (xr t k : EReal)) * Ideal.ofBits .f32 0x3C000000#32) * (wr k : EReal)) + b = _
  rw [scale_eq, c128_eq, Ideal.ofBits_zero_f32]
  exact law xr wr b

/-! ## The specification's side, at an (episode, sample) pair -/

/-- The re-laid encoder of the specification at the pair (e, n) and the feature q, read from the unflattened frames
    and the bias vector: row e·N + n of the flattened stack is the pair (e, n). -/
theorem spec_at {N R : Nat} (hR : R = 32 * N)
    (a0 : (⟨4, ![32, N, 128, 64]⟩ : Shape).Idx → EReal) (a3 : (⟨2, ![64, 256]⟩ : Shape).Idx → EReal)
    (a4 : (⟨1, ![256]⟩ : Shape).Idx → EReal)
    (h1 : (⟨4, ![32, N, 128, 64]⟩ : Shape).ShapeCasts ⟨3, ![R, 128, 64]⟩)
    (h0 : (⟨1, ![256]⟩ : Shape).ShapeCasts ⟨2, ![1, 256]⟩)
    (h4 : (⟨2, ![R, 256]⟩ : Shape).ShapeCasts ⟨3, ![32, N, 256]⟩)
    (e : Fin 32) (n : Fin N) (q : Fin 256) :
    shapeCast ⟨3, ![32, N, 256]⟩
        (Cert.Spec.enc R (shapeCast ⟨3, ![R, 128, 64]⟩ a0 h1) a3 (shapeCast ⟨2, ![1, 256]⟩ a4 h0)) h4 (ix3 e n q)
      = (∑ k : Fin 64, ((∑ t : Fin 128, a0 (ix4 e n t k)) * Cert.Spec.scale) * a3 (ix2 k q)) + a4 (ix1 q) := by
  have hp : e.val * N + n.val < R := by
    have h31 : e.val * N ≤ 31 * N := Nat.mul_le_mul_right N (Nat.le_of_lt_succ e.isLt)
    have hn := n.isLt
    omega
  rw [shapeCast_apply _ h4 (ix3 e n q) (ix2 ⟨e.val * N + n.val, hp⟩ q)
    (by rw [Shape.rowMajor_val_two, Shape.rowMajor_val_three]; rfl)]
  rw [Cert.Spec.enc_apply]
  unfold Cert.Spec.encAt
  have hx : ∀ (t : Fin 128) (k : Fin 64),
      shapeCast ⟨3, ![R, 128, 64]⟩ a0 h1 (ix3 ⟨e.val * N + n.val, hp⟩ t k) = a0 (ix4 e n t k) := fun t k =>
    shapeCast_apply _ h1 _ _ (by rw [Shape.rowMajor_val_four, Shape.rowMajor_val_three]; rfl)
  have hb : shapeCast ⟨2, ![1, 256]⟩ a4 h0 (ix2 (0 : Fin 1) q) = a4 (ix1 q) :=
    shapeCast_apply _ h0 _ _ (by
      rw [Shape.rowMajor_val_one, Shape.rowMajor_val_two]
      show q.val = 0 * 256 + q.val
      omega)
  simp only [hx, hb]

/-! ## The reference's side, at an (episode, sample) pair -/

/-- The reference's encoder stage for the 50-sample arrays at the pair (e, n) and the feature q: the projection of the
    zero-initialised time sums, divided by the word of 128, plus the bias. -/
theorem ref_at_support (a0 : (⟨4, ![32, 50, 128, 64]⟩ : Shape).Idx → EReal) (a3 : (⟨2, ![64, 256]⟩ : Shape).Idx → EReal)
    (a4 : (⟨1, ![256]⟩ : Shape).Idx → EReal) (e : Fin 32) (n : Fin 50) (q : Fin 256) :
    Cert.ReferenceIdeal.Read.val_main_v6 (F := Ideal) a0 a3 a4 (ix3 e n q)
      = Ideal.div (∑ k : Fin 64, (Ideal.ofBits .f32 0x00000000#32 + ∑ t : Fin 128, a0 (ix4 e n t k)) * a3 (ix2 k q))
          (Ideal.ofBits .f32 0x43000000#32) + a4 (ix1 q) := by
  have e0 : ∀ (k : Fin 64) (t : Fin 128),
      Cert.ReferenceIdeal.Read.idx_main_v0 (Cert.ReferenceIdeal.Read.lidx_main_v1 (ix3 e n q) k) t = ix4 e n t k := fun k t =>
    funext fun a => Fin.ext (by match a with | ⟨0, _⟩ => rfl | ⟨1, _⟩ => rfl | ⟨2, _⟩ => rfl | ⟨3, _⟩ => rfl)
  have e1 : ∀ k : Fin 64, Cert.ReferenceIdeal.Read.ridx_main_v1 (ix3 e n q) k = ix2 k q := fun k =>
    funext fun a => Fin.ext (by match a with | ⟨0, _⟩ => rfl | ⟨1, _⟩ => rfl)
  have e2 : Cert.ReferenceIdeal.Read.idx_main_v4 (Cert.ReferenceIdeal.Read.idx_main_v5 (ix3 e n q)) = ix1 q :=
    funext fun a => Fin.ext (by match a with | ⟨0, _⟩ => rfl)
  rw [Cert.ReferenceIdeal.Read.val_main_v6_apply, Cert.ReferenceIdeal.Read.val_main_v3_apply,
    Cert.ReferenceIdeal.Read.val_main_v1_apply, Cert.ReferenceIdeal.Read.val_main_v2_apply,
    Cert.ReferenceIdeal.Read.val_main_cst_0_apply, Cert.ReferenceIdeal.Read.val_main_v5_apply,
    Cert.ReferenceIdeal.Read.val_main_v4_apply]
  simp only [Cert.ReferenceIdeal.Read.val_main_v0_apply, Cert.ReferenceIdeal.Read.val_main_cst_apply, Ideal.addf_def,
    Ideal.hostDivf_def, Ideal.ofBits_def, e0, e1, e2]

/-- The reference's encoder stage for the 75-sample arrays at the pair (e, n) and the feature q: the projection of the
    zero-initialised time sums, divided by the word of 128, plus the bias. -/
theorem ref_at_query (a2 : (⟨4, ![32, 75, 128, 64]⟩ : Shape).Idx → EReal) (a3 : (⟨2, ![64, 256]⟩ : Shape).Idx → EReal)
    (a4 : (⟨1, ![256]⟩ : Shape).Idx → EReal) (e : Fin 32) (n : Fin 75) (q : Fin 256) :
    Cert.ReferenceIdeal.Read.val_main_v13 (F := Ideal) a2 a3 a4 (ix3 e n q)
      = Ideal.div (∑ k : Fin 64, (Ideal.ofBits .f32 0x00000000#32 + ∑ t : Fin 128, a2 (ix4 e n t k)) * a3 (ix2 k q))
          (Ideal.ofBits .f32 0x43000000#32) + a4 (ix1 q) := by
  have e0 : ∀ (k : Fin 64) (t : Fin 128),
      Cert.ReferenceIdeal.Read.idx_main_v7 (Cert.ReferenceIdeal.Read.lidx_main_v8 (ix3 e n q) k) t = ix4 e n t k := fun k t =>
    funext fun a => Fin.ext (by match a with | ⟨0, _⟩ => rfl | ⟨1, _⟩ => rfl | ⟨2, _⟩ => rfl | ⟨3, _⟩ => rfl)
  have e1 : ∀ k : Fin 64, Cert.ReferenceIdeal.Read.ridx_main_v8 (ix3 e n q) k = ix2 k q := fun k =>
    funext fun a => Fin.ext (by match a with | ⟨0, _⟩ => rfl | ⟨1, _⟩ => rfl)
  have e2 : Cert.ReferenceIdeal.Read.idx_main_v11 (Cert.ReferenceIdeal.Read.idx_main_v12 (ix3 e n q)) = ix1 q :=
    funext fun a => Fin.ext (by match a with | ⟨0, _⟩ => rfl)
  rw [Cert.ReferenceIdeal.Read.val_main_v13_apply, Cert.ReferenceIdeal.Read.val_main_v10_apply,
    Cert.ReferenceIdeal.Read.val_main_v8_apply, Cert.ReferenceIdeal.Read.val_main_v9_apply,
    Cert.ReferenceIdeal.Read.val_main_cst_2_apply, Cert.ReferenceIdeal.Read.val_main_v12_apply,
    Cert.ReferenceIdeal.Read.val_main_v11_apply]
  simp only [Cert.ReferenceIdeal.Read.val_main_v7_apply, Cert.ReferenceIdeal.Read.val_main_cst_1_apply, Ideal.addf_def,
    Ideal.hostDivf_def, Ideal.ofBits_def, e0, e1, e2]

/-! ## The two encoders -/

/-- The support set: 32 episodes of 50 samples, 1600 flattened rows. -/
theorem enc_support (a0 : (⟨4, ![32, 50, 128, 64]⟩ : Shape).Idx → EReal) (a3 : (⟨2, ![64, 256]⟩ : Shape).Idx → EReal)
    (a4 : (⟨1, ![256]⟩ : Shape).Idx → EReal)
    (h1 : (⟨4, ![32, 50, 128, 64]⟩ : Shape).ShapeCasts ⟨3, ![1600, 128, 64]⟩)
    (h0 : (⟨1, ![256]⟩ : Shape).ShapeCasts ⟨2, ![1, 256]⟩)
    (h4 : (⟨2, ![1600, 256]⟩ : Shape).ShapeCasts ⟨3, ![32, 50, 256]⟩)
    (f0 : ∀ i, ∃ r : ℝ, a0 i = (r : EReal)) (f3 : ∀ i, ∃ r : ℝ, a3 i = (r : EReal)) :
    shapeCast ⟨3, ![32, 50, 256]⟩ (Cert.Spec.enc 1600 (shapeCast ⟨3, ![1600, 128, 64]⟩ a0 h1) a3 (shapeCast ⟨2, ![1, 256]⟩ a4 h0)) h4
      = Cert.ReferenceIdeal.Read.val_main_v6 (F := Ideal) a0 a3 a4 := by
  funext i
  rw [eq_ix3 i]
  have key : ∀ (e : Fin 32) (n : Fin 50) (q : Fin 256),
      shapeCast ⟨3, ![32, 50, 256]⟩
          (Cert.Spec.enc 1600 (shapeCast ⟨3, ![1600, 128, 64]⟩ a0 h1) a3 (shapeCast ⟨2, ![1, 256]⟩ a4 h0)) h4 (ix3 e n q)
        = Cert.ReferenceIdeal.Read.val_main_v6 (F := Ideal) a0 a3 a4 (ix3 e n q) := fun e n q => by
    rw [spec_at (by norm_num) a0 a3 a4 h1 h0 h4 e n q, ref_at_support a0 a3 a4 e n q]
    exact law_words (fun t k => a0 (ix4 e n t k)) (fun k => a3 (ix2 k q)) (a4 (ix1 q))
      (fun t k => f0 _) (fun k => f3 _)
  exact key (i 0) (i 1) (i 2)

/-- The query set: 32 episodes of 75 samples, 2400 flattened rows. -/
theorem enc_query (a2 : (⟨4, ![32, 75, 128, 64]⟩ : Shape).Idx → EReal) (a3 : (⟨2, ![64, 256]⟩ : Shape).Idx → EReal)
    (a4 : (⟨1, ![256]⟩ : Shape).Idx → EReal)
    (h1 : (⟨4, ![32, 75, 128, 64]⟩ : Shape).ShapeCasts ⟨3, ![2400, 128, 64]⟩)
    (h0 : (⟨1, ![256]⟩ : Shape).ShapeCasts ⟨2, ![1, 256]⟩)
    (h4 : (⟨2, ![2400, 256]⟩ : Shape).ShapeCasts ⟨3, ![32, 75, 256]⟩)
    (f2 : ∀ i, ∃ r : ℝ, a2 i = (r : EReal)) (f3 : ∀ i, ∃ r : ℝ, a3 i = (r : EReal)) :
    shapeCast ⟨3, ![32, 75, 256]⟩ (Cert.Spec.enc 2400 (shapeCast ⟨3, ![2400, 128, 64]⟩ a2 h1) a3 (shapeCast ⟨2, ![1, 256]⟩ a4 h0)) h4
      = Cert.ReferenceIdeal.Read.val_main_v13 (F := Ideal) a2 a3 a4 := by
  funext i
  rw [eq_ix3 i]
  have key : ∀ (e : Fin 32) (n : Fin 75) (q : Fin 256),
      shapeCast ⟨3, ![32, 75, 256]⟩
          (Cert.Spec.enc 2400 (shapeCast ⟨3, ![2400, 128, 64]⟩ a2 h1) a3 (shapeCast ⟨2, ![1, 256]⟩ a4 h0)) h4 (ix3 e n q)
        = Cert.ReferenceIdeal.Read.val_main_v13 (F := Ideal) a2 a3 a4 (ix3 e n q) := fun e n q => by
    rw [spec_at (by norm_num) a2 a3 a4 h1 h0 h4 e n q, ref_at_query a2 a3 a4 e n q]
    exact law_words (fun t k => a2 (ix4 e n t k)) (fun k => a3 (ix2 k q)) (a4 (ix1 q))
      (fun t k => f2 _) (fun k => f3 _)
  exact key (i 0) (i 1) (i 2)

end Cert.EncRef

end
-- ==== Proof.Finite.lean ====
import proofs.«180324_j29351806501536_1_alg».proof.Pre_finite_inputs
import Idealize.ShloMosaic.PureOps.Ideal.Laws
import Idealize.ShloMosaic.Lib.ReduceAll
import Idealize.ShloMosaic.Lib.ValueIdx

/-!
# From the precondition to real-valued inputs

The precondition is a conjunction of four statements "every entry `x` of this array has `|x| < +∞`", one per float
input, each an `and`-reduction of the entrywise comparison over the whole array. Over the extended reals the absolute
value is `max x (-x)`, and the comparison is the strict order. An extended real with `max x (-x) < ⊤` is neither `⊤`
(then `max x (-x) = ⊤`) nor `⊥` (then `-x = ⊤`), so it is the image of a real number. Reading the conjunction
apart and each reduction at an index gives, for the three inputs the algebra uses, a real witness at every entry.
-/

noncomputable section

namespace Cert.Finite

open Idealize.ShloMosaic Cert.Pre_finite_inputs

/-- The single-precision word with exponent field all ones and fraction zero, sign clear, denotes `+∞`. -/
theorem inf_word : Ideal.ofBits .f32 0x7F800000#32 = (⊤ : EReal) := by
  simp [Ideal.ofBits, Ideal.ieee]

/-- An extended real whose absolute value `max x (-x)` is strictly below `+∞` is a real number: at `⊥` the
    negation is `⊤`, at `⊤` the value itself is, and in both cases the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The same fact in the form the precondition carries it: the one-bit result of the strict comparison of
    `max x (-x)` against the word of `+∞` is 1. -/
theorem real_of_cmp (x : EReal)
    (h : Ideal.cmp .olt (max x (-x)) (Ideal.ofBits .f32 0x7F800000#32) = 1#1) : ∃ r : ℝ, x = (r : EReal) := by
  rw [inf_word] at h
  refine real_of_abs_lt_top x ?_
  by_contra hn
  simp [Ideal.cmp, hn] at h

/-- The rank-0 shape has exactly one index (a function out of the empty type). -/
instance : Subsingleton S_.Idx := ⟨fun a b => funext fun d => d.elim0⟩

/-- If the precondition holds, every entry of the two frame stacks and of the weight matrix is a real number.
    The precondition's value at its one index is `((A₀ ∧ A₂) ∧ A₃) ∧ A₄` with `A_k` the reduction by `and` of
    `|a_k| < +∞` over all axes; a conjunction of one-bit words is 1 exactly when both are, and a reduction by
    `and` that is 1 had a 1 at every entry. At an entry the comparison reads `max x (-x) < +∞`. -/
theorem reals_of_pre [Cert.Pre_finite_inputs.Facts]
    (a0 : FVec Ideal S32x50x128x64 .f32) (a1 : IVec S32x50 32) (a2 : FVec Ideal S32x75x128x64 .f32)
    (a3 : FVec Ideal S64x256 .f32) (a4 : FVec Ideal S256 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  obtain ⟨h13, -⟩ := IntOp.andi_eq_one.1 h0
  obtain ⟨h8, h12⟩ := IntOp.andi_eq_one.1 h13
  obtain ⟨h3, h7⟩ := IntOp.andi_eq_one.1 h8
  refine ⟨fun i => real_of_cmp (a0 i) ?_, fun i => real_of_cmp (a2 i) ?_, fun i => real_of_cmp (a3 i) ?_⟩
  · exact Host.reduce_andi_all _ _ _ _ _ h3 i
  · exact Host.reduce_andi_all _ _ _ _ _ h7 i
  · exact Host.reduce_andi_all _ _ _ _ _ h12 i

end Cert.Finite
-- ==== Proof.Algebraic.lean ====
/-
  The two idealized programs end with the same result.

  KernelIdeal's result buffer when @main returns is the prototype-distance tail of its two pallas_calls' output arrays,
  re-laid (the run of @main read at the result buffer). Each output array is the encoder of what its region found in its
  input arrays (the blocks each grid point writes back tile the array), and what a region finds is the launch memory
  re-laid. The encoder of the re-laid launch arrays, re-laid back to (episode, sample) pairs, is the reference's encoder
  stage: the kernel scales the time sum by 2⁻⁷ before projecting, the reference divides the projected time sum by 128
  afterwards, and on real inputs (the precondition) the two are one real number, term by term. The reference's result is
  the same tail of its two encoder stages. So from memories agreeing on the arguments both runs end at the tail of the
  reference's encoder stages of the kernel's launch arrays.
-/
import proofs.«180324_j29351806501536_1_alg».proof.Defs
import proofs.«180324_j29351806501536_1_alg».proof.Proof.Gen.KernelIdeal.Frame
import proofs.«180324_j29351806501536_1_alg».proof.Proof.Gen.ReferenceIdeal.Run
import proofs.«180324_j29351806501536_1_alg».proof.Proof.Gen.ReferenceIdeal.Read
import proofs.«180324_j29351806501536_1_alg».proof.Proof.Gen.Pre_finite_inputs
import proofs.«180324_j29351806501536_1_alg».proof.Proof.Spec
import proofs.«180324_j29351806501536_1_alg».proof.Proof.Tail
import proofs.«180324_j29351806501536_1_alg».proof.Proof.RefTail
import proofs.«180324_j29351806501536_1_alg».proof.Proof.KRun
import proofs.«180324_j29351806501536_1_alg».proof.Proof.KValue
import proofs.«180324_j29351806501536_1_alg».proof.Proof.KEntry
import proofs.«180324_j29351806501536_1_alg».proof.Proof.KBlocks
import proofs.«180324_j29351806501536_1_alg».proof.Proof.EncRef
import proofs.«180324_j29351806501536_1_alg».proof.Proof.Finite

set_option maxRecDepth 16384

noncomputable section

namespace Cert.Proof.Algebraic

open Idealize.ShloMosaic Idealize.ShloMosaic.TcCoe Idealize.SL.Sem

section Kernel
open Cert.KernelIdeal Cert.KernelIdeal.Gen

/-- The common value of the two results, from the kernel's launch memory: the tail of the reference's two encoder
    stages of the launch arrays. -/
def result (m : (ℓ : Loc nD τ sig) → Buf (Elt Ideal) ℓ) (c : Dev nD) : FVec Ideal Cert.ReferenceIdeal.S2400x5 .f32 :=
  Cert.Tail.tail
    (Cert.ReferenceIdeal.Read.val_main_v6 (F := Ideal) (m ((c.tc : Thread nD τ).loc main_arg0)) (m ((c.tc : Thread nD τ).loc main_arg3)) (m ((c.tc : Thread nD τ).loc main_arg4)))
    (Cert.ReferenceIdeal.Read.val_main_v13 (F := Ideal) (m ((c.tc : Thread nD τ).loc main_arg2)) (m ((c.tc : Thread nD τ).loc main_arg3)) (m ((c.tc : Thread nD τ).loc main_arg4)))
    (m ((c.tc : Thread nD τ).loc main_arg1))

/-- KernelIdeal's result buffer when @main returns is that value, when the precondition holds of the launch memory. -/
theorem kernel_result (m : (ℓ : Loc nD τ sig) → Buf (Elt Ideal) ℓ) (ρ : Dev nD → PrngReg) (hpre : Cert.Pre_KernelIdeal m)
    (c : Dev nD) : W5 m ρ c (Proc.devRef .tc main_v28) = result m c := by
  obtain ⟨f0, f2, f3⟩ := Cert.Finite.reals_of_pre _ _ _ _ _ (hpre c)
  have es : shapeCast S32x50x256 ((dat0 (V1 m ρ) c).arrAt 3 cfg0.N) shapeCasts_S1600x256_S32x50x256
      = Cert.ReferenceIdeal.Read.val_main_v6 (F := Ideal) (m ((c.tc : Thread nD τ).loc main_arg0)) (m ((c.tc : Thread nD τ).loc main_arg3)) (m ((c.tc : Thread nD τ).loc main_arg4)) := by
    rw [Cert.KernelIdeal.Blocks.arr0 (V1 m ρ) c, Cert.KernelIdeal.KEntry.frames0 m ρ c, Cert.KernelIdeal.KEntry.weights0 m ρ c,
      Cert.KernelIdeal.KEntry.bias0 m ρ c]
    exact Cert.EncRef.enc_support _ _ _ _ _ _ f0 f3
  have eq : shapeCast S32x75x256 ((dat1 (V3 m ρ) c).arrAt 3 cfg1.N) shapeCasts_S2400x256_S32x75x256
      = Cert.ReferenceIdeal.Read.val_main_v13 (F := Ideal) (m ((c.tc : Thread nD τ).loc main_arg2)) (m ((c.tc : Thread nD τ).loc main_arg3)) (m ((c.tc : Thread nD τ).loc main_arg4)) := by
    rw [Cert.KernelIdeal.Blocks.arr1 (V3 m ρ) c, Cert.KernelIdeal.KEntry.frames1 m ρ c, Cert.KernelIdeal.KEntry.weights1 m ρ c,
      Cert.KernelIdeal.KEntry.bias1 m ρ c]
    exact Cert.EncRef.enc_query _ _ _ _ _ _ f2 f3
  rw [Cert.KernelIdeal.KValue.result_eq m ρ c, es, eq]
  rfl

end Kernel

/-- Both idealized programs, from memories agreeing on the arguments, run and end with equal results and unchanged arguments. -/
theorem algebraic : Cert.algebraic_KernelIdeal_ReferenceIdeal := by
  intro m ρ m' ρ' hpre hagree
  refine ⟨fun c => result m c, ?_, ?_⟩
  · exact (θ_run Cert.KernelIdeal.defs _ _).mono (fun r h c => ⟨(h c).1.trans (kernel_result m ρ hpre c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.RefTail.result_eq m' c, (hagree c).1, (hagree c).2.1, (hagree c).2.2.1, (hagree c).2.2.2.1, (hagree c).2.2.2.2]
    rfl

end Cert.Proof.Algebraic

end
-- ==== Proof.lean ====
/-
  The proof of `Cert.Claim`: the prototypical-network kernel (two pallas_calls of one encoder body, then prototype
  distances on the host) against its jnp reference, over the extended reals.

  The frames of Kernel and KernelIdeal are the generated frame certificates of the two-region program. The reference has no
  kernel: its frame is its generated run with the result dropped. The ideal pass rewrote nothing, so `preserves` is
  `True`. The value claim is Proof/Algebraic.lean: both programs are "encode the support frames, encode the query frames,
  take prototype distances"; the encoders differ only in where the mean's factor 1/128 is applied (before the projection in
  the kernel, as a division after it in the reference), which on finite inputs is the same real number
  (Proof/EncRef.lean), and the distances are one shared function applied to equal arguments (Proof/Tail.lean).
-/
import proofs.«180324_j29351806501536_1_alg».proof.Defs
import proofs.«180324_j29351806501536_1_alg».proof.Proof.Gen.Kernel
import proofs.«180324_j29351806501536_1_alg».proof.Proof.Gen.Kernel.Skeleton
import proofs.«180324_j29351806501536_1_alg».proof.Proof.Gen.Kernel.Launch
import proofs.«180324_j29351806501536_1_alg».proof.Proof.Gen.Kernel.Points
import proofs.«180324_j29351806501536_1_alg».proof.Proof.Gen.Kernel.Frame
import proofs.«180324_j29351806501536_1_alg».proof.Proof.Gen.KernelIdeal
import proofs.«180324_j29351806501536_1_alg».proof.Proof.Gen.KernelIdeal.Skeleton
import proofs.«180324_j29351806501536_1_alg».proof.Proof.Gen.KernelIdeal.Launch
import proofs.«180324_j29351806501536_1_alg».proof.Proof.Gen.KernelIdeal.Points
import proofs.«180324_j29351806501536_1_alg».proof.Proof.Gen.KernelIdeal.Frame
import proofs.«180324_j29351806501536_1_alg».proof.Proof.Gen.ReferenceIdeal
import proofs.«180324_j29351806501536_1_alg».proof.Proof.Gen.ReferenceIdeal.Run
import proofs.«180324_j29351806501536_1_alg».proof.Proof.Gen.ReferenceIdeal.Read
import proofs.«180324_j29351806501536_1_alg».proof.Proof.Gen.Pre_finite_inputs
import proofs.«180324_j29351806501536_1_alg».proof.Proof.Algebraic
import Idealize.ShloMosaic.Adequacy
import Idealize.ShloMosaic.Init

noncomputable section

namespace Cert.Proof

open Idealize.ShloMosaic Idealize.SL.Sem

/-- The word-level kernel program runs and keeps its arguments: the generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Algebraic.algebraic⟩

end Cert.Proof

end
